-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x600000 : Shape := ⟨2, ![2, 600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : IVec S2x600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S2x600000 : Shape := ⟨2, ![2, 600000]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S5000x128 : Shape := ⟨2, ![5000, 128]⟩
abbrev S700000x128 : Shape := ⟨2, ![700000, 128]⟩
abbrev S1x128 : Shape := ⟨2, ![1, 128]⟩

abbrev nBuf : Space → Nat
  | .hbm => 86
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x600000, .i32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S100000, .i32⟩
  | .hbm, ⟨11, _⟩ => ⟨S700000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S700000, .i32⟩
  | .hbm, ⟨31, _⟩ => ⟨S700000, .i1⟩
  | .hbm, ⟨32, _⟩ => ⟨S_, .i32⟩
  | .hbm, ⟨33, _⟩ => ⟨S700000, .i32⟩
  | .hbm, ⟨34, _⟩ => ⟨S700000, .i32⟩
  | .hbm, ⟨35, _⟩ => ⟨S700000, .i32⟩
  | .hbm, ⟨36, _⟩ => ⟨S700000x1, .i32⟩
  | .hbm, ⟨37, _⟩ => ⟨S700000, .f32⟩
  | .hbm, ⟨38, _⟩ => ⟨S_, .i32⟩
  | .hbm, ⟨39, _⟩ => ⟨S700000, .i32⟩
  | .hbm, ⟨40, _⟩ => ⟨S700000, .i1⟩
  | .hbm, ⟨41, _⟩ => ⟨S_, .i32⟩
  | .hbm, ⟨42, _⟩ => ⟨S700000, .i32⟩
  | .hbm, ⟨43, _⟩ => ⟨S700000, .i32⟩
  | .hbm, ⟨44, _⟩ => ⟨S700000, .i32⟩
  | .hbm, ⟨45, _⟩ => ⟨S700000x1, .i32⟩
  | .hbm, ⟨46, _⟩ => ⟨S700000, .f32⟩
  | .hbm, ⟨47, _⟩ => ⟨S700000, .f32⟩
  | .hbm, ⟨48, _⟩ => ⟨S100000x128, .f32⟩
  | .hbm, ⟨49, _⟩ => ⟨S_, .i32⟩
  | .hbm, ⟨50, _⟩ => ⟨S700000, .i32⟩
  | .hbm, ⟨51, _⟩ => ⟨S700000, .i1⟩
  | .hbm, ⟨52, _⟩ => ⟨S_, .i32⟩
  | .hbm, ⟨53, _⟩ => ⟨S700000, .i32⟩
  | .hbm, ⟨54, _⟩ => ⟨S700000, .i32⟩
  | .hbm, ⟨55, _⟩ => ⟨S700000, .i32⟩
  | .hbm, ⟨56, _⟩ => ⟨S700000x1, .i32⟩
  | .hbm, ⟨57, _⟩ => ⟨S700000x128, .f32⟩
  | .hbm, ⟨58, _⟩ => ⟨S700000x1, .f32⟩
  | .hbm, ⟨59, _⟩ => ⟨S700000x128, .f32⟩
  | .hbm, ⟨60, _⟩ => ⟨S700000x128, .f32⟩
  | .hbm, ⟨61, _⟩ => ⟨S_, .f32⟩
  | .hbm, ⟨62, _⟩ => ⟨S100000x128, .f32⟩
  | .hbm, ⟨63, _⟩ => ⟨S700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S700000, .i32⟩
  | .hbm, ⟨70, _⟩ => ⟨S700000, .i1⟩
  | .hbm, ⟨71, _⟩ => ⟨S_, .i32⟩
  | .hbm, ⟨72, _⟩ => ⟨S700000, .i32⟩
  | .hbm, ⟨73, _⟩ => ⟨S700000, .i32⟩
  | .hbm, ⟨74, _⟩ => ⟨S700000, .i32⟩
  | .hbm, ⟨75, _⟩ => ⟨S700000x1, .i32⟩
  | .hbm, ⟨76, _⟩ => ⟨S700000x128, .f32⟩
  | .hbm, ⟨77, _⟩ => ⟨S700000x1, .f32⟩
  | .hbm, ⟨78, _⟩ => ⟨S700000x128, .f32⟩
  | .hbm, ⟨79, _⟩ => ⟨S700000x128, .f32⟩
  | .hbm, ⟨80, _⟩ => ⟨S_, .f32⟩
  | .hbm, ⟨81, _⟩ => ⟨S100000x128, .f32⟩
  | .hbm, ⟨82, _⟩ => ⟨S700000x1, .i32⟩
  | .hbm, ⟨83, _⟩ => ⟨S100000x128, .f32⟩
  | .hbm, ⟨84, _⟩ => ⟨S1x128, .f32⟩
  | .hbm, ⟨85, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x600000 : Shape := ⟨2, ![2, 600000]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 127
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x600000, .i32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S100000x128, .f32⟩
  | .hbm, ⟨11, _⟩ => ⟨S100000, .i32⟩
  | .hbm, ⟨12, _⟩ => ⟨S700000, .i32⟩
  | .hbm, ⟨13, _⟩ => ⟨S700000, .i32⟩
  | .hbm, ⟨14, _⟩ => ⟨S_, .f32⟩
  | .hbm, ⟨15, _⟩ => ⟨S700000, .f32⟩
  | .hbm, ⟨16, _⟩ => ⟨S_, .f32⟩
  | .hbm, ⟨17, _⟩ => ⟨S100000, .f32⟩
  | .hbm, ⟨18, _⟩ => ⟨S700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S700000, .i32⟩
  | .hbm, ⟨32, _⟩ => ⟨S700000, .i1⟩
  | .hbm, ⟨33, _⟩ => ⟨S_, .i32⟩
  | .hbm, ⟨34, _⟩ => ⟨S700000, .i32⟩
  | .hbm, ⟨35, _⟩ => ⟨S700000, .i32⟩
  | .hbm, ⟨36, _⟩ => ⟨S700000, .i32⟩
  | .hbm, ⟨37, _⟩ => ⟨S700000x1, .i32⟩
  | .hbm, ⟨38, _⟩ => ⟨S700000, .f32⟩
  | .hbm, ⟨39, _⟩ => ⟨S_, .i32⟩
  | .hbm, ⟨40, _⟩ => ⟨S700000, .i32⟩
  | .hbm, ⟨41, _⟩ => ⟨S700000, .i1⟩
  | .hbm, ⟨42, _⟩ => ⟨S_, .i32⟩
  | .hbm, ⟨43, _⟩ => ⟨S700000, .i32⟩
  | .hbm, ⟨44, _⟩ => ⟨S700000, .i32⟩
  | .hbm, ⟨45, _⟩ => ⟨S700000, .i32⟩
  | .hbm, ⟨46, _⟩ => ⟨S700000x1, .i32⟩
  | .hbm, ⟨47, _⟩ => ⟨S700000, .f32⟩
  | .hbm, ⟨48, _⟩ => ⟨S700000, .f32⟩
  | .hbm, ⟨49, _⟩ => ⟨S_, .i32⟩
  | .hbm, ⟨50, _⟩ => ⟨S700000, .i32⟩
  | .hbm, ⟨51, _⟩ => ⟨S700000, .i1⟩
  | .hbm, ⟨52, _⟩ => ⟨S_, .i32⟩
  | .hbm, ⟨53, _⟩ => ⟨S700000, .i32⟩
  | .hbm, ⟨54, _⟩ => ⟨S700000, .i32⟩
  | .hbm, ⟨55, _⟩ => ⟨S700000, .i32⟩
  | .hbm, ⟨56, _⟩ => ⟨S700000x1, .i32⟩
  | .hbm, ⟨57, _⟩ => ⟨S700000x128, .f32⟩
  | .hbm, ⟨58, _⟩ => ⟨S700000x1, .f32⟩
  | .hbm, ⟨59, _⟩ => ⟨S700000x128, .f32⟩
  | .hbm, ⟨60, _⟩ => ⟨S700000x128, .f32⟩
  | .hbm, ⟨61, _⟩ => ⟨S_, .f32⟩
  | .hbm, ⟨62, _⟩ => ⟨S100000x128, .f32⟩
  | .hbm, ⟨63, _⟩ => ⟨S700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S100000, .i32⟩
  | .hbm, ⟨71, _⟩ => ⟨S700000, .i32⟩
  | .hbm, ⟨72, _⟩ => ⟨S700000, .i32⟩
  | .hbm, ⟨73, _⟩ => ⟨S_, .f32⟩
  | .hbm, ⟨74, _⟩ => ⟨S700000, .f32⟩
  | .hbm, ⟨75, _⟩ => ⟨S_, .f32⟩
  | .hbm, ⟨76, _⟩ => ⟨S100000, .f32⟩
  | .hbm, ⟨77, _⟩ => ⟨S700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S_, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S_, .i32⟩
  | .hbm, ⟨90, _⟩ => ⟨S700000, .i32⟩
  | .hbm, ⟨91, _⟩ => ⟨S700000, .i1⟩
  | .hbm, ⟨92, _⟩ => ⟨S_, .i32⟩
  | .hbm, ⟨93, _⟩ => ⟨S700000, .i32⟩
  | .hbm, ⟨94, _⟩ => ⟨S700000, .i32⟩
  | .hbm, ⟨95, _⟩ => ⟨S700000, .i32⟩
  | .hbm, ⟨96, _⟩ => ⟨S700000x1, .i32⟩
  | .hbm, ⟨97, _⟩ => ⟨S700000, .f32⟩
  | .hbm, ⟨98, _⟩ => ⟨S_, .i32⟩
  | .hbm, ⟨99, _⟩ => ⟨S700000, .i32⟩
  | .hbm, ⟨100, _⟩ => ⟨S700000, .i1⟩
  | .hbm, ⟨101, _⟩ => ⟨S_, .i32⟩
  | .hbm, ⟨102, _⟩ => ⟨S700000, .i32⟩
  | .hbm, ⟨103, _⟩ => ⟨S700000, .i32⟩
  | .hbm, ⟨104, _⟩ => ⟨S700000, .i32⟩
  | .hbm, ⟨105, _⟩ => ⟨S700000x1, .i32⟩
  | .hbm, ⟨106, _⟩ => ⟨S700000, .f32⟩
  | .hbm, ⟨107, _⟩ => ⟨S700000, .f32⟩
  | .hbm, ⟨108, _⟩ => ⟨S_, .i32⟩
  | .hbm, ⟨109, _⟩ => ⟨S700000, .i32⟩
  | .hbm, ⟨110, _⟩ => ⟨S700000, .i1⟩
  | .hbm, ⟨111, _⟩ => ⟨S_, .i32⟩
  | .hbm, ⟨112, _⟩ => ⟨S700000, .i32⟩
  | .hbm, ⟨113, _⟩ => ⟨S700000, .i32⟩
  | .hbm, ⟨114, _⟩ => ⟨S700000, .i32⟩
  | .hbm, ⟨115, _⟩ => ⟨S700000x1, .i32⟩
  | .hbm, ⟨116, _⟩ => ⟨S700000x128, .f32⟩
  | .hbm, ⟨117, _⟩ => ⟨S700000x1, .f32⟩
  | .hbm, ⟨118, _⟩ => ⟨S700000x128, .f32⟩
  | .hbm, ⟨119, _⟩ => ⟨S700000x128, .f32⟩
  | .hbm, ⟨120, _⟩ => ⟨S_, .f32⟩
  | .hbm, ⟨121, _⟩ => ⟨S100000x128, .f32⟩
  | .hbm, ⟨122, _⟩ => ⟨S700000x1, .i32⟩
  | .hbm, ⟨123, _⟩ => ⟨S100000x128, .f32⟩
  | .hbm, ⟨124, _⟩ => ⟨S1x128, .f32⟩
  | .hbm, ⟨125, _⟩ => ⟨S100000x128, .f32⟩
  | .hbm, ⟨126, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_cst_14 : Ref sig .tc := ⟨.hbm, 85, rfl⟩
abbrev main_call1_v0 : Ref sig .tc := ⟨.hbm, 86, rfl⟩
abbrev main_call1_v1 : Ref sig .tc := ⟨.hbm, 87, rfl⟩
abbrev main_v61 : Ref sig .tc := ⟨.hbm, 88, rfl⟩
abbrev main_c_15 : Ref sig .tc := ⟨.hbm, 89, rfl⟩
abbrev main_v62 : Ref sig .tc := ⟨.hbm, 90, rfl⟩
abbrev main_v63 : Ref sig .tc := ⟨.hbm, 91, rfl⟩
abbrev main_c_16 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_17 : Ref sig .tc := ⟨.hbm, 98, rfl⟩
abbrev main_v69 : Ref sig .tc := ⟨.hbm, 99, rfl⟩
abbrev main_v70 : Ref sig .tc := ⟨.hbm, 100, rfl⟩
abbrev main_c_18 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_19 : Ref sig .tc := ⟨.hbm, 108, rfl⟩
abbrev main_v77 : Ref sig .tc := ⟨.hbm, 109, rfl⟩
abbrev main_v78 : Ref sig .tc := ⟨.hbm, 110, rfl⟩
abbrev main_c_20 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_21 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.Spec.lean ====
import proofs.«142045_j48069273977164_1_alg».proof.Proof.Gen.ReferenceIdeal

/-!
# The function both programs compute

A two-layer graph convolution over 100000 nodes with 128 features and 600000 directed edges, every node
also carrying a self loop.  With `s`, `d` the source and destination lists (the edge lists followed by
`0, 1, …, 99999`), `deg v` the number of entries of `d` equal to `v`, and
`norm k = deg(s k)^(-1/2) · deg(d k)^(-1/2)` (zero where the degree is not positive), one layer sends a node
matrix `h` to the matrix whose row `v` is the sum, over the list positions `k` with `d k = v`, of
`norm k · h[s k, ·]`.  The result is `agg (tanh (agg (x · W1) + b1) · W2) + b2`.

Every function below is written with the host operations of the reference program, so that the
reference's result is this term on the nose and the aggregation is never opened.
-/

noncomputable section

namespace Cert.Gcn

open Cert.ReferenceIdeal Cert.ReferenceIdeal.Gen Idealize.ShloMosaic Idealize.ShloMosaic.TcCoe Idealize.SL.Sem Idealize.ShloMosaic.StableHlo

variable {F : FTy → Type} [FloatOps F]

/-- The source list: row 0 of the edge array followed by the self loops `0 … 99999`. -/
def srcIdx (e : (⟨S2x600000, .i32⟩ : BufTy).Contents (Elt F)) : (⟨S700000, .i32⟩ : BufTy).Contents (Elt F) :=
  (concatenate S700000 0 [⟨S600000, (shapeCast _ (extractStridedSlice S1x600000 ![0, 0] e slices_S2x600000_S1x600000_0_0) shapeCasts_S1x600000_S600000)⟩, ⟨S100000, (iotaInDim S100000 32 0)⟩] concatenates_S600000_S100000_S700000_d0)

/-- The destination list: row 1 of the edge array followed by the self loops. -/
def dstIdx (e : (⟨S2x600000, .i32⟩ : BufTy).Contents (Elt F)) : (⟨S700000, .i32⟩ : BufTy).Contents (Elt F) :=
  (concatenate S700000 0 [⟨S600000, (shapeCast _ (extractStridedSlice S1x600000 ![1, 0] e slices_S2x600000_S1x600000_1_0) shapeCasts_S1x600000_S600000)⟩, ⟨S100000, (iotaInDim S100000 32 0)⟩] concatenates_S600000_S100000_S700000_d0)

/-- A negative index counts from the end: `i + 100000` where `i < 0`, else `i`. -/
def wrap (i : (⟨S700000, .i32⟩ : BufTy).Contents (Elt F)) : (⟨S700000, .i32⟩ : BufTy).Contents (Elt F) :=
  (select (cmpi .slt i (broadcastInDim S700000 ![] bcast_S_S700000 (constantI S_ 32 0#32))) (addi i (broadcastInDim S700000 ![] bcast_S_S700000 (constantI S_ 32 100000#32))) i)

/-- The degree of every node: how many entries of the destination list name it. -/
def deg (d : (⟨S700000, .i32⟩ : BufTy).Contents (Elt F)) : (⟨S100000, .f32⟩ : BufTy).Contents (Elt F) :=
  (Host.scatterAdd scatter_S100000_S700000x1_S700000_n_0_0_1 (broadcastInDim S100000 ![] bcast_S_S100000 (constant S_ .f32 0x00000000#32)) (broadcastInDim S700000x1 ![0] bcast_S700000_S700000x1_0 d) (broadcastInDim S700000 ![] bcast_S_S700000 (constant S_ .f32 0x3F800000#32)))

/-- `deg^(-1/2)` where the degree is positive, zero elsewhere. -/
def dinv (d : (⟨S700000, .i32⟩ : BufTy).Contents (Elt F)) : (⟨S100000, .f32⟩ : BufTy).Contents (Elt F) :=
  (select (cmpf .ogt (deg d) (broadcastInDim S100000 ![] bcast_S_S100000 (constant S_ .f32 0x00000000#32))) (Host.powf (deg d) (broadcastInDim S100000 ![] bcast_S_S100000 (constant S_ .f32 0xBF000000#32))) (broadcastInDim S100000 ![] bcast_S_S100000 (id (constant S_ .f32 0x00000000#32))))

/-- The weight of list position `k`: `dinv (s k) · dinv (d k)`. -/
def norm (s d : (⟨S700000, .i32⟩ : BufTy).Contents (Elt F)) : (⟨S700000, .f32⟩ : BufTy).Contents (Elt F) :=
  (mulf (Host.gather gather_S100000_S700000x1_S700000_n_0_n_n_0_1_1 (dinv d) (broadcastInDim S700000x1 ![0] bcast_S700000_S700000x1_0 (wrap s))) (Host.gather gather_S100000_S700000x1_S700000_n_0_n_n_0_1_1 (dinv d) (broadcastInDim S700000x1 ![0] bcast_S700000_S700000x1_0 (wrap d))))

/-- One aggregation: row `v` of the result sums `nrm k · h[s k, ·]` over the positions `k` with `d k = v`. -/
def agg (s d : (⟨S700000, .i32⟩ : BufTy).Contents (Elt F)) (nrm : (⟨S700000, .f32⟩ : BufTy).Contents (Elt F)) (h : (⟨S100000x128, .f32⟩ : BufTy).Contents (Elt F)) : (⟨S100000x128, .f32⟩ : BufTy).Contents (Elt F) :=
  (Host.scatterAdd scatter_S100000x128_S700000x1_S700000x128_1_0_0_1 (broadcastInDim S100000x128 ![] bcast_S_S100000x128 (constant S_ .f32 0x00000000#32)) (broadcastInDim S700000x1 ![0] bcast_S700000_S700000x1_0 d) (mulf (Host.gather gather_S100000x128_S700000x1_S700000x128_1_0_n_n_0_1_1128 h (broadcastInDim S700000x1 ![0] bcast_S700000_S700000x1_0 (wrap s))) (broadcastInDim S700000x128 ![0, 1] bcast_S700000x1_S700000x128_0_1 (broadcastInDim S700000x1 ![0] bcast_S700000_S700000x1_0 nrm))))

/-- The dense map of a layer: the node matrix times a 128 × 128 weight matrix. -/
def mm (x : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none x w

/-- A one-row matrix repeated down all 100000 rows. -/
def rows (b : (⟨S1x128, .f32⟩ : BufTy).Contents (Elt F)) : (⟨S100000x128, .f32⟩ : BufTy).Contents (Elt F) :=
  broadcastInDim S100000x128 ![0, 1] bcast_S1x128_S100000x128_0_1 b

/-- A bias vector as a one-row matrix. -/
def asRow (b : (⟨S128, .f32⟩ : BufTy).Contents (Elt F)) : (⟨S1x128, .f32⟩ : BufTy).Contents (Elt F) :=
  broadcastInDim S1x128 ![1] bcast_S128_S1x128_1 b

/-- The first layer, with its `tanh`. -/
def layer1 (x : (⟨S100000x128, .f32⟩ : BufTy).Contents (Elt F)) (W1 : (⟨S128x128, .f32⟩ : BufTy).Contents (Elt F)) (b1 : (⟨S128, .f32⟩ : BufTy).Contents (Elt F)) (e : (⟨S2x600000, .i32⟩ : BufTy).Contents (Elt F)) : (⟨S100000x128, .f32⟩ : BufTy).Contents (Elt F) :=
  Host.tanh (addf (agg (srcIdx e) (dstIdx e) (norm (srcIdx e) (dstIdx e)) (mm x W1)) (rows (asRow b1)))

/-- Both layers: the function the two programs compute. -/
def out (x : (⟨S100000x128, .f32⟩ : BufTy).Contents (Elt F)) (W1 : (⟨S128x128, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F)) (e : (⟨S2x600000, .i32⟩ : BufTy).Contents (Elt F)) : (⟨S100000x128, .f32⟩ : BufTy).Contents (Elt F) :=
  addf (agg (srcIdx e) (dstIdx e) (norm (srcIdx e) (dstIdx e)) (mm (layer1 x W1 b1 e) W2)) (rows (asRow b2))

end Cert.Gcn

end
-- ==== Proof.HostStretch.lean ====
import proofs.«142045_j48069273977164_1_alg».proof.Proof.Gen.KernelIdeal.Frame
import proofs.«142045_j48069273977164_1_alg».proof.Proof.Spec
import Idealize.ShloMosaic.Lib.StableHlo.Run
import Idealize.ShloMosaic.Lib.Pipeline.Value
import Idealize.ShloMosaic.Lib.ValueIdx

/-!
# The host stretches of the kernel program, read as values

Between its four kernel regions the kernel program runs plain host operations.  Each stretch is read here
from an ARBITRARY valuation `W` of the buffers it starts from: what a buffer holds afterwards is the
stretch's operations composed over `W`'s contents, and a buffer no operation of the stretch writes holds
what `W` gave it.

* Before region 0: the source and destination lists, the degree, its inverse square root and the edge
  weights `norm` are computed from the edge array alone; the float arguments are not touched.
* Before region 1 and before region 3: one aggregation of the matrix the preceding region produced
  (gather the source rows, scale by `norm`, add into the destination rows), and the bias vector laid
  out as one row.

The composed terms are the specification's functions (Spec.lean) by unfolding: the kernel program spells
them with the same operations as the reference.
-/

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]
variable (W : Valuation τ sig (Elt F))

/-! ## Before region 0 -/

set_option maxHeartbeats 2000000 in
/-- The source list: row 0 of the edge array, then the self loops. -/
theorem pre_src : after hostOps0_2 (after hostOps0_1 (after hostOps0 W)) (Proc.devRef .tc main_v5) = Cert.Gcn.srcIdx (F := F) (W (Proc.devRef .tc main_arg5)) := by
  after_results_simp
  rfl

set_option maxHeartbeats 2000000 in
/-- The destination list: row 1 of the edge array, then the self loops. -/
theorem pre_dst : after hostOps0_2 (after hostOps0_1 (after hostOps0 W)) (Proc.devRef .tc main_v6) = Cert.Gcn.dstIdx (F := F) (W (Proc.devRef .tc main_arg5)) := by
  after_results_simp
  rfl

set_option maxHeartbeats 2000000 in
/-- The edge weights: the product of the two endpoints' inverse square root degrees. -/
theorem pre_norm : after hostOps0_2 (after hostOps0_1 (after hostOps0 W)) (Proc.devRef .tc main_v30)
    = Cert.Gcn.norm (F := F) (Cert.Gcn.srcIdx (W (Proc.devRef .tc main_arg5))) (Cert.Gcn.dstIdx (W (Proc.devRef .tc main_arg5))) := by
  after_results_simp
  rfl

set_option maxHeartbeats 2000000 in
/-- Argument 0 is not written before region 0. -/
theorem pre_arg0 : after hostOps0_2 (after hostOps0_1 (after hostOps0 W)) (Proc.devRef .tc main_arg0) = W (Proc.devRef .tc main_arg0) := by
  after_results_simp

set_option maxHeartbeats 2000000 in
/-- Argument 1 is not written before region 0. -/
theorem pre_arg1 : after hostOps0_2 (after hostOps0_1 (after hostOps0 W)) (Proc.devRef .tc main_arg1) = W (Proc.devRef .tc main_arg1) := by
  after_results_simp

set_option maxHeartbeats 2000000 in
/-- Argument 2 is not written before region 0. -/
theorem pre_arg2 : after hostOps0_2 (after hostOps0_1 (after hostOps0 W)) (Proc.devRef .tc main_arg2) = W (Proc.devRef .tc main_arg2) := by
  after_results_simp

set_option maxHeartbeats 2000000 in
/-- Argument 3 is not written before region 0. -/
theorem pre_arg3 : after hostOps0_2 (after hostOps0_1 (after hostOps0 W)) (Proc.devRef .tc main_arg3) = W (Proc.devRef .tc main_arg3) := by
  after_results_simp

set_option maxHeartbeats 2000000 in
/-- Argument 4 is not written before region 0. -/
theorem pre_arg4 : after hostOps0_2 (after hostOps0_1 (after hostOps0 W)) (Proc.devRef .tc main_arg4) = W (Proc.devRef .tc main_arg4) := by
  after_results_simp

/-! ## A bias vector laid out as one row -/

/-- The kernel program reshapes a bias vector `[128]` to `[1, 128]`; the reference broadcasts it there: entry
    `(0, q)` of either is entry `q` of the vector. -/
theorem reshape_row (b : (⟨S128, .f32⟩ : BufTy).Contents (Elt F)) :
    (shapeCast S1x128 b shapeCasts_S128_S1x128 : (⟨S1x128, .f32⟩ : BufTy).Contents (Elt F)) = Cert.Gcn.asRow (F := F) b := by
  funext j
  obtain ⟨p, q, rfl⟩ : ∃ (p : Fin 1) (q : Fin 128), j = ValueIdx.ix2 p q := ⟨j 0, j 1, ValueIdx.eq_ix2 j⟩
  unfold Cert.Gcn.asRow
  have hp : p.val = 0 := by omega
  rw [shapeCast_apply b _ (ValueIdx.ix2 p q) (ValueIdx.ix1 q) (by
        rw [Shape.rowMajor_val_one, Shape.rowMajor_val_two]
        show q.val = p.val * 128 + q.val
        omega),
      broadcastInDim_apply _ _ b (ValueIdx.ix2 p q) (ValueIdx.ix1 q) (by
        intro a
        match a with
        | ⟨0, _⟩ => rfl)]

/-! ## Between region 0 and region 1 -/

set_option maxHeartbeats 2000000 in
/-- The first aggregation, of the matrix region 0 left in `main_v31`. -/
theorem mid_agg : after hostOps1 W (Proc.devRef .tc main_v44)
    = Cert.Gcn.agg (F := F) (W (Proc.devRef .tc main_v5)) (W (Proc.devRef .tc main_v6)) (W (Proc.devRef .tc main_v30)) (W (Proc.devRef .tc main_v31)) := by
  after_results_simp
  rfl

set_option maxHeartbeats 2000000 in
/-- The first bias as a row. -/
theorem mid_row : after hostOps1 W (Proc.devRef .tc main_v45) = Cert.Gcn.asRow (F := F) (W (Proc.devRef .tc main_arg2)) := by
  after_results_simp
  exact reshape_row _

set_option maxHeartbeats 2000000 in
/-- `main_v5` is not written between region 0 and region 1. -/
theorem mid_keep_src : after hostOps1 W (Proc.devRef .tc main_v5) = W (Proc.devRef .tc main_v5) := by
  after_results_simp

set_option maxHeartbeats 2000000 in
/-- `main_v6` is not written between region 0 and region 1. -/
theorem mid_keep_dst : after hostOps1 W (Proc.devRef .tc main_v6) = W (Proc.devRef .tc main_v6) := by
  after_results_simp

set_option maxHeartbeats 2000000 in
/-- `main_v30` is not written between region 0 and region 1. -/
theorem mid_keep_norm : after hostOps1 W (Proc.devRef .tc main_v30) = W (Proc.devRef .tc main_v30) := by
  after_results_simp

set_option maxHeartbeats 2000000 in
/-- `main_arg3` is not written between region 0 and region 1. -/
theorem mid_keep_arg3 : after hostOps1 W (Proc.devRef .tc main_arg3) = W (Proc.devRef .tc main_arg3) := by
  after_results_simp

set_option maxHeartbeats 2000000 in
/-- `main_arg4` is not written between region 0 and region 1. -/
theorem mid_keep_arg4 : after hostOps1 W (Proc.devRef .tc main_arg4) = W (Proc.devRef .tc main_arg4) := by
  after_results_simp

/-! ## Between region 2 and region 3 -/

set_option maxHeartbeats 2000000 in
/-- The second aggregation, of the matrix region 2 left in `main_v47`. -/
theorem post_agg : after hostOps3 W (Proc.devRef .tc main_v60)
    = Cert.Gcn.agg (F := F) (W (Proc.devRef .tc main_v5)) (W (Proc.devRef .tc main_v6)) (W (Proc.devRef .tc main_v30)) (W (Proc.devRef .tc main_v47)) := by
  after_results_simp
  rfl

set_option maxHeartbeats 2000000 in
/-- The second bias as a row. -/
theorem post_row : after hostOps3 W (Proc.devRef .tc main_v61) = Cert.Gcn.asRow (F := F) (W (Proc.devRef .tc main_arg4)) := by
  after_results_simp
  exact reshape_row _

end Cert.KernelIdeal.Host

end
-- ==== Proof.Region0.lean ====
import proofs.«142045_j48069273977164_1_alg».proof.Proof.Gen.KernelIdeal.Frame
import proofs.«142045_j48069273977164_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The offsets `![0, 0]` are the zero offsets. -/
theorem zero_off : (![0, 0] : Fin 2 → Nat) = fun _ => 0 := funext fun a => by fin_cases a <;> rfl

/-! ## A 5000-row block times the weights, at an index

The body's dot contracts axis 1 of its left operand with axis 0 of its right one. At output index `i` and
contraction index `q` the left operand is read at `(i 0, q)` and the right one at `(q, i 1)`: one lemma per axis. -/

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `i 0` of a block, at column `k`. -/
abbrev blkRow (i : S5000x128.Idx) (k : Fin 128) : S5000x128.Idx := fun a => match a with
  | ⟨0, _⟩ => ⟨(i 0).val, (i 0).isLt⟩
  | ⟨1, _⟩ => ⟨k.val, k.isLt⟩
/-- Column `i 1` of the weights, at row `k`. -/
abbrev wCol (i : S5000x128.Idx) (k : Fin 128) : S128x128.Idx := fun a => match a with
  | ⟨0, _⟩ => ⟨k.val, k.isLt⟩
  | ⟨1, _⟩ => ⟨(i 1).val, (i 1).isLt⟩

/-- The body's arithmetic at an index: a change of float format is the identity at the ideal values and the
    product accumulates into the zero splat, so entry `i` is the plain sum over `k` of `x0 (i 0, k) · x1 (k, i 1)`. -/
theorem pay_apply (x0 : Vec Ideal S5000x128 .f32) (x1 : Vec Ideal S128x128 .f32) (i : S5000x128.Idx) :
    k0_pay1 (F := Ideal) x0 x1 i = ∑ k : Fin 128, x0 (blkRow i k) * x1 (wCol i k) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = blkRow i k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx i ((ValueIdx.contrEquiv1 dot_S5000x128_S128x128_S5000x128_1_0_0_1_n_n 128 rfl rfl).symm k) = wCol i k := funext fun a => Fin.ext (by
    match a with
    | ⟨0, _⟩ => exact (rhs_blk_0 _ _).trans hk
    | ⟨1, _⟩ => exact rhs_blk_1 _ _)
  rw [el, er]
  rfl

/-! ## The whole product at an index -/

theorem lhs_arr_0 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
theorem lhs_arr_1 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhs_arr_0 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhs_arr_1 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/-- Row `i 0` of the node matrix, at column `k`. -/
abbrev arrRow (i : S100000x128.Idx) (k : Fin 128) : S100000x128.Idx := fun a => match a with
  | ⟨0, _⟩ => ⟨(i 0).val, (i 0).isLt⟩
  | ⟨1, _⟩ => ⟨k.val, k.isLt⟩
/-- Column `i 1` of the weights, at row `k`. -/
abbrev arrCol (i : S100000x128.Idx) (k : Fin 128) : S128x128.Idx := fun a => match a with
  | ⟨0, _⟩ => ⟨k.val, k.isLt⟩
  | ⟨1, _⟩ => ⟨(i 1).val, (i 1).isLt⟩

/-- The dense map at an index: entry `i` of `x · w` is the sum over `k` of `x (i 0, k) · w (k, i 1)`. -/
theorem mm_apply (x : (⟨S100000x128, .f32⟩ : BufTy).Contents (Elt Ideal)) (w : (⟨S128x128, .f32⟩ : BufTy).Contents (Elt Ideal)) (i : S100000x128.Idx) :
    Cert.Gcn.mm (F := Ideal) x w i = ∑ k : Fin 128, x (arrRow i k) * w (arrCol i k) := by
  unfold Cert.Gcn.mm
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = arrRow i k := funext fun a => Fin.ext (by
    match a with
    | ⟨0, _⟩ => exact lhs_arr_0 _ _
    | ⟨1, _⟩ => exact (lhs_arr_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = arrCol i k := funext fun a => Fin.ext (by
    match a with
    | ⟨0, _⟩ => exact (rhs_arr_0 _ _).trans hk
    | ⟨1, _⟩ => exact rhs_arr_1 _ _)
  rw [el, er]

/-! ## The blocks as rows of the arrays -/

/-- The windows' index maps, decided once over the grid: the left and the result blocks are at block row `t`,
    block column 0; the weights' one block is at (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t`, at `x`, is the left array at `(5000 t + x 0, x 1)`. -/
theorem lblock_apply (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = (V c main_arg0 : S100000x128.Idx → Elt Ideal .f32) k := by
  obtain ⟨e00, e01, -, -, -, -⟩ := index_facts t
  unfold iblk0
  rw [View.read_apply]
  show V c main_arg0 _ = V c main_arg0 _
  congr 1
  funext a
  apply Fin.ext
  match a with
  | ⟨0, _⟩ => show win0_0.index t (0 : Fin 2) * 5000 + 1 * (x 0).val = (k 0).val; rw [e00, hk0]; omega
  | ⟨1, _⟩ => show win0_0.index t (1 : Fin 2) * 128 + 1 * (x 1).val = (k 1).val; rw [e01, hk1]; omega

/-- The weights' window's block at any point is the whole weight array. -/
theorem wblock_apply (c : Dev nD) (t : Fin cfg0.N) (x : S128x128.Idx) (k : S128x128.Idx)
    (hk0 : (k 0).val = (x 0).val) (hk1 : (k 1).val = (x 1).val) :
    (iblk0 V c 1 t : Vec Ideal S128x128 .f32) x = (V c main_arg1 : S128x128.Idx → Elt Ideal .f32) k := by
  obtain ⟨-, -, e10, e11, -, -⟩ := index_facts t
  unfold iblk0
  rw [View.read_apply]
  show V c main_arg1 _ = V c main_arg1 _
  congr 1
  funext a
  apply Fin.ext
  match a with
  | ⟨0, _⟩ => show win0_1.index t (0 : Fin 2) * 128 + 1 * (x 0).val = (k 0).val; rw [e10, hk0]; omega
  | ⟨1, _⟩ => show win0_1.index t (1 : Fin 2) * 128 + 1 * (x 1).val = (k 1).val; rw [e11, hk1]; omega

/-! ## What each point writes back, and the cover -/

/-- What point `t` writes back is block `t` of the product of the two arrays: entry `(p, q)` of the block is the sum
    over `k` of `x (5000 t + p, k) · w (k, q)`, which is entry `(5000 t + p, q)` of the product. -/
theorem flushed_eq (c : Dev nD) (t : Fin cfg0.N) :
    (dat0 (F := Ideal) V c).flushed 2 t
      = ((cfg0.win 2).blk t).view.read (Elt Ideal) (Cert.Gcn.mm (F := Ideal) (V c main_arg0) (V c main_arg1)) := by
  show (cfg0.win 2).cut (grid0.coords t) ((dat0 V c).after 2 t) = _
  rw [after0_2]
  unfold out0_2
  rw [View.canon_unit_zero zero_off]
  simp only [View.ld_unit_zero (S := S5000x128) zero_off, View.ld_unit_zero (S := S128x128) zero_off]
  obtain ⟨-, -, -, -, e20, e21⟩ := index_facts t
  funext j
  show k0_pay1 (F := Ideal) (iblk0 V c 0 t) (iblk0 V c 1 t) j
    = Cert.Gcn.mm (F := Ideal) (V c main_arg0) (V c main_arg1) (((cfg0.win 2).blk t).view.emb j)
  refine (pay_apply _ _ j).trans ((Finset.sum_congr rfl fun k _ => ?_).trans (mm_apply _ _ _).symm)
  have hl := lblock_apply V c t (blkRow j k) (arrRow (((cfg0.win 2).blk t).view.emb j) k)
    (by show win0_2.index t (0 : Fin 2) * 5000 + 1 * (j 0).val = 5000 * t.val + (j 0).val; rw [e20]; omega) rfl
  have hr := wblock_apply V c t (wCol j k) (arrCol (((cfg0.win 2).blk t).view.emb j) k) rfl
    (by show win0_2.index t (1 : Fin 2) * 128 + 1 * (j 1).val = (j 1).val; rw [e21]; omega)
  rw [hl, hr]

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every block row of the array is some point's. -/
theorem index_onto : ∀ q : Fin 20, ∃ t : Fin cfg0.N, win0_2.index t (0 : Fin 2) = q.val ∧ win0_2.index t (1 : Fin 2) = 0 :=
  (by decide +kernel : ∀ q : Fin 20, ∃ t : Fin grid0.N, win0_2.index t (0 : Fin 2) = q.val ∧ win0_2.index t (1 : Fin 2) = 0)

/-- The twenty blocks tile the array: row `r` lies in the block of the point whose block row is `r / 5000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, q0, q1⟩ := index_onto ⟨(i 0).val / 5000, by omega⟩
  have q0' : win0_2.index t (0 : Fin 2) = (i 0).val / 5000 := q0
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array region 0 leaves: the twenty 5000-row blocks of products `x[5000 t + p, ·] · W` tile the 100000 rows, so it is the whole product of the two arrays the region finds. -/
theorem arr_eq (c : Dev nD) :
    (dat0 (F := Ideal) V c).arrAt 2 cfg0.N = Cert.Gcn.mm (F := Ideal) (V c main_arg0) (V c main_arg1) := by
  exact (dat0 (F := Ideal) V c).arrAt_eq_of_cover 2 (Cert.Gcn.mm (F := Ideal) (V c main_arg0) (V c main_arg1)) (fun t _ => flushed_eq V c t) cover

end Cert.KernelIdeal.Region0

end
-- ==== Proof.Region1.lean ====
import proofs.«142045_j48069273977164_1_alg».proof.Proof.Gen.KernelIdeal.Frame
import proofs.«142045_j48069273977164_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

open Idealize.ShloMosaic.ValueIdx

/-- The two zero offsets of a whole-block load or store are the constant zero. -/
theorem zero_off : (![0, 0] : Fin 2 → Nat) = fun _ => 0 := funext fun a => by fin_cases a <;> rfl

/-- What the result array ends holding: `tanh` of the aggregate plus the bias row repeated down all rows. -/
abbrev G (a : S100000x128.Idx → Elt Ideal .f32) (b : S1x128.Idx → Elt Ideal .f32) : S100000x128.Idx → Elt Ideal .f32 :=
  Host.tanh (F := Ideal) (s := S100000x128) (φ := .f32) (addf (F := Ideal) (s := S100000x128) (φ := .f32) a (Cert.Gcn.rows (F := Ideal) b))

/-- The body's value at entry `(p, q)` of a block: `tanh` of the block's entry plus the bias row's entry `q`. -/
theorem pay_apply (x0 : Vec Ideal S5000x128 .f32) (x1 : Vec Ideal S1x128 .f32) (p : Fin 5000) (q : Fin 128) :
    k1_pay1 x0 x1 (ix2 p q) = Ideal.tanh (x0 (ix2 p q) + x1 (ix2 (0 : Fin 1) q)) := by
  unfold k1_pay1
  show Ideal.tanh (shapeCast S5000x128 x0 shapeCasts_S5000x128_S5000x128 (ix2 p q)
    + broadcastTo S5000x128 (shapeCast S1x128 x1 shapeCasts_S1x128_S1x128) broadcasts_S1x128_S5000x128 (ix2 p q)) = _
  rw [shapeCast_self, shapeCast_self, broadcastTo_1b_ab_apply]

/-- The bias row repeated down the rows, read at `(r, q)`, is the row's entry `q`. -/
theorem rows_apply (b : S1x128.Idx → Elt Ideal .f32) (r : Fin 100000) (q : Fin 128) :
    Cert.Gcn.rows (F := Ideal) b (ix2 r q) = b (ix2 (0 : Fin 1) q) := by
  unfold Cert.Gcn.rows
  refine broadcastInDim_apply _ _ b (ix2 r q) (ix2 (0 : Fin 1) q) fun ax => ?_
  match ax with
  | ⟨0, _⟩ => rfl
  | ⟨1, _⟩ => rfl

/-- The whole-array function at `(r, q)`. -/
theorem G_apply (a : S100000x128.Idx → Elt Ideal .f32) (b : S1x128.Idx → Elt Ideal .f32) (r : Fin 100000) (q : Fin 128) :
    G a b (ix2 r q) = Ideal.tanh (a (ix2 r q) + b (ix2 (0 : Fin 1) q)) := by
  show Ideal.tanh (a (ix2 r q) + Cert.Gcn.rows (F := Ideal) b (ix2 r q)) = _
  rw [rows_apply]

/-- The index maps over the grid: the row-block windows sit at block `(t, 0)`, the bias row at block `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One entry of a block against the whole-array function: the block's entry `j` of the aggregate is the array's entry
    `i` in the same column, and the loaded bias row is the bias array. -/
theorem block_entry (A : S100000x128.Idx → Elt Ideal .f32) (B : S1x128.Idx → Elt Ideal .f32)
    (x0 : Vec Ideal S5000x128 .f32) (x1 : Vec Ideal S1x128 .f32) (j : S5000x128.Idx) (i : S100000x128.Idx)
    (h0 : x0 j = A i) (h1 : ∀ q : Fin 128, x1 (ix2 (0 : Fin 1) q) = B (ix2 (0 : Fin 1) q)) (hq : (i 1).val = (j 1).val) :
    k1_pay1 x0 x1 j = G A B i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hq
  rw [pay_apply, G_apply, h0, h1]

/-- What point `t` writes back is block `t` of the whole-array function of the arrays the region finds. -/
theorem flushed_eq (c : Dev nD) (t : Fin cfg1.N) :
    (dat1 (F := Ideal) V c).flushed 2 t = ((cfg1.win 2).blk t).view.read (Elt Ideal) (G (V c main_v44) (V c main_v45)) := by
  show (cfg1.win 2).cut (grid1.coords t) ((dat1 V c).after 2 t) = _
  rw [after1_2]
  unfold out1_2
  rw [View.canon_unit_zero zero_off]
  simp only [View.ld_unit_zero (S := S5000x128) zero_off, View.ld_unit_zero (S := S1x128) zero_off]
  obtain ⟨e0, e1, e2, e3, e4, e5⟩ := idx_facts t
  funext j
  show k1_pay1 (iblk1 V c 0 t) (iblk1 V c 1 t) j = G (V c main_v44) (V c main_v45) (((cfg1.win 2).blk t).view.emb j)
  refine block_entry _ _ _ _ j _ ?_ ?_ ?_
  · show V c main_v44 (((cfg1.win 0).blk t).view.emb j) = V c main_v44 (((cfg1.win 2).blk t).view.emb j)
    refine congrArg (V c main_v44) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · intro q
    show V c main_v45 (((cfg1.win 1).blk t).view.emb (ix2 (0 : Fin 1) q)) = V c main_v45 (ix2 (0 : Fin 1) q)
    refine congrArg (V c main_v45) (funext fun a => Fin.ext ?_)
    match a with
    | ⟨0, _⟩ => show win1_1.index t (0 : Fin 2) * 1 + 1 * (0 : Fin 1).val = (0 : Fin 1).val; rw [e2]; rfl
    | ⟨1, _⟩ => show win1_1.index t (1 : Fin 2) * 128 + 1 * q.val = q.val; omega
  · show win1_2.index t (1 : Fin 2) * 128 + 1 * (j 1).val = (j 1).val
    omega

/-- An index of the array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- Every index of the array is in some point's block: row `r` lies in the block of point `r / 5000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 5000, by show (i 0).val / 5000 < 20; omega⟩
  obtain ⟨e0, e1, e2, e3, e4, e5⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The array region 1 leaves: block `t` holds `tanh (a + b)` on rows `5000 t … 5000 t + 4999`, the one-row bias repeated down the block, so it is `tanh` of the aggregate plus the bias rows. -/
theorem arr_eq (c : Dev nD) :
    (dat1 (F := Ideal) V c).arrAt 2 cfg1.N = Host.tanh (F := Ideal) (s := S100000x128) (φ := .f32) (addf (F := Ideal) (s := S100000x128) (φ := .f32) (V c main_v44) (Cert.Gcn.rows (F := Ideal) (V c main_v45))) := by
  exact (dat1 (F := Ideal) V c).arrAt_eq_of_cover 2 (G (V c main_v44) (V c main_v45)) (fun t _ => flushed_eq V c t) cover

end Cert.KernelIdeal.Region1

end
-- ==== Proof.Region2.lean ====
import proofs.«142045_j48069273977164_1_alg».proof.Proof.Gen.KernelIdeal.Frame
import proofs.«142045_j48069273977164_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The offsets `![0, 0]` are the zero offsets. -/
theorem zero_off : (![0, 0] : Fin 2 → Nat) = fun _ => 0 := funext fun a => by fin_cases a <;> rfl

/-! ## A 5000-row block times the weights, at an index

The body's dot contracts axis 1 of its left operand with axis 0 of its right one. At output index `i` and
contraction index `q` the left operand is read at `(i 0, q)` and the right one at `(q, i 1)`: one lemma per axis. -/

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `i 0` of a block, at column `k`. -/
abbrev blkRow (i : S5000x128.Idx) (k : Fin 128) : S5000x128.Idx := fun a => match a with
  | ⟨0, _⟩ => ⟨(i 0).val, (i 0).isLt⟩
  | ⟨1, _⟩ => ⟨k.val, k.isLt⟩
/-- Column `i 1` of the weights, at row `k`. -/
abbrev wCol (i : S5000x128.Idx) (k : Fin 128) : S128x128.Idx := fun a => match a with
  | ⟨0, _⟩ => ⟨k.val, k.isLt⟩
  | ⟨1, _⟩ => ⟨(i 1).val, (i 1).isLt⟩

/-- The body's arithmetic at an index: a shape cast to the same shape and a change of float format are the identity at the ideal values and the
    product accumulates into the zero splat, so entry `i` is the plain sum over `k` of `x0 (i 0, k) · x1 (k, i 1)`. -/
theorem pay_apply (x0 : Vec Ideal S5000x128 .f32) (x1 : Vec Ideal S128x128 .f32) (i : S5000x128.Idx) :
    k2_pay1 (F := Ideal) x0 x1 i = ∑ k : Fin 128, x0 (blkRow i k) * x1 (wCol i k) := by
  unfold k2_pay1
  rw [shapeCast_self]
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = blkRow i k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx i ((ValueIdx.contrEquiv1 dot_S5000x128_S128x128_S5000x128_1_0_0_1_n_n 128 rfl rfl).symm k) = wCol i k := funext fun a => Fin.ext (by
    match a with
    | ⟨0, _⟩ => exact (rhs_blk_0 _ _).trans hk
    | ⟨1, _⟩ => exact rhs_blk_1 _ _)
  rw [el, er]
  rfl

/-! ## The whole product at an index -/

theorem lhs_arr_0 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
theorem lhs_arr_1 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhs_arr_0 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhs_arr_1 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/-- Row `i 0` of the node matrix, at column `k`. -/
abbrev arrRow (i : S100000x128.Idx) (k : Fin 128) : S100000x128.Idx := fun a => match a with
  | ⟨0, _⟩ => ⟨(i 0).val, (i 0).isLt⟩
  | ⟨1, _⟩ => ⟨k.val, k.isLt⟩
/-- Column `i 1` of the weights, at row `k`. -/
abbrev arrCol (i : S100000x128.Idx) (k : Fin 128) : S128x128.Idx := fun a => match a with
  | ⟨0, _⟩ => ⟨k.val, k.isLt⟩
  | ⟨1, _⟩ => ⟨(i 1).val, (i 1).isLt⟩

/-- The dense map at an index: entry `i` of `x · w` is the sum over `k` of `x (i 0, k) · w (k, i 1)`. -/
theorem mm_apply (x : (⟨S100000x128, .f32⟩ : BufTy).Contents (Elt Ideal)) (w : (⟨S128x128, .f32⟩ : BufTy).Contents (Elt Ideal)) (i : S100000x128.Idx) :
    Cert.Gcn.mm (F := Ideal) x w i = ∑ k : Fin 128, x (arrRow i k) * w (arrCol i k) := by
  unfold Cert.Gcn.mm
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = arrRow i k := funext fun a => Fin.ext (by
    match a with
    | ⟨0, _⟩ => exact lhs_arr_0 _ _
    | ⟨1, _⟩ => exact (lhs_arr_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = arrCol i k := funext fun a => Fin.ext (by
    match a with
    | ⟨0, _⟩ => exact (rhs_arr_0 _ _).trans hk
    | ⟨1, _⟩ => exact rhs_arr_1 _ _)
  rw [el, er]

/-! ## The blocks as rows of the arrays -/

/-- The windows' index maps, decided once over the grid: the left and the result blocks are at block row `t`,
    block column 0; the weights' one block is at (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point `t`, at `x`, is the left array at `(5000 t + x 0, x 1)`. -/
theorem lblock_apply (c : Dev nD) (t : Fin cfg2.N) (x : S5000x128.Idx) (k : S100000x128.Idx)
    (hk0 : (k 0).val = 5000 * t.val + (x 0).val) (hk1 : (k 1).val = (x 1).val) :
    (iblk2 V c 0 t : Vec Ideal S5000x128 .f32) x = (V c main_v46 : S100000x128.Idx → Elt Ideal .f32) k := by
  obtain ⟨e00, e01, -, -, -, -⟩ := index_facts t
  unfold iblk2
  rw [View.read_apply]
  show V c main_v46 _ = V c main_v46 _
  congr 1
  funext a
  apply Fin.ext
  match a with
  | ⟨0, _⟩ => show win2_0.index t (0 : Fin 2) * 5000 + 1 * (x 0).val = (k 0).val; rw [e00, hk0]; omega
  | ⟨1, _⟩ => show win2_0.index t (1 : Fin 2) * 128 + 1 * (x 1).val = (k 1).val; rw [e01, hk1]; omega

/-- The weights' window's block at any point is the whole weight array. -/
theorem wblock_apply (c : Dev nD) (t : Fin cfg2.N) (x : S128x128.Idx) (k : S128x128.Idx)
    (hk0 : (k 0).val = (x 0).val) (hk1 : (k 1).val = (x 1).val) :
    (iblk2 V c 1 t : Vec Ideal S128x128 .f32) x = (V c main_arg3 : S128x128.Idx → Elt Ideal .f32) k := by
  obtain ⟨-, -, e10, e11, -, -⟩ := index_facts t
  unfold iblk2
  rw [View.read_apply]
  show V c main_arg3 _ = V c main_arg3 _
  congr 1
  funext a
  apply Fin.ext
  match a with
  | ⟨0, _⟩ => show win2_1.index t (0 : Fin 2) * 128 + 1 * (x 0).val = (k 0).val; rw [e10, hk0]; omega
  | ⟨1, _⟩ => show win2_1.index t (1 : Fin 2) * 128 + 1 * (x 1).val = (k 1).val; rw [e11, hk1]; omega

/-! ## What each point writes back, and the cover -/

/-- What point `t` writes back is block `t` of the product of the two arrays: entry `(p, q)` of the block is the sum
    over `k` of `x (5000 t + p, k) · w (k, q)`, which is entry `(5000 t + p, q)` of the product. -/
theorem flushed_eq (c : Dev nD) (t : Fin cfg2.N) :
    (dat2 (F := Ideal) V c).flushed 2 t
      = ((cfg2.win 2).blk t).view.read (Elt Ideal) (Cert.Gcn.mm (F := Ideal) (V c main_v46) (V c main_arg3)) := by
  show (cfg2.win 2).cut (grid2.coords t) ((dat2 V c).after 2 t) = _
  rw [after2_2]
  unfold out2_2
  rw [View.canon_unit_zero zero_off]
  simp only [View.ld_unit_zero (S := S5000x128) zero_off, View.ld_unit_zero (S := S128x128) zero_off]
  obtain ⟨-, -, -, -, e20, e21⟩ := index_facts t
  funext j
  show k2_pay1 (F := Ideal) (iblk2 V c 0 t) (iblk2 V c 1 t) j
    = Cert.Gcn.mm (F := Ideal) (V c main_v46) (V c main_arg3) (((cfg2.win 2).blk t).view.emb j)
  refine (pay_apply _ _ j).trans ((Finset.sum_congr rfl fun k _ => ?_).trans (mm_apply _ _ _).symm)
  have hl := lblock_apply V c t (blkRow j k) (arrRow (((cfg2.win 2).blk t).view.emb j) k)
    (by show win2_2.index t (0 : Fin 2) * 5000 + 1 * (j 0).val = 5000 * t.val + (j 0).val; rw [e20]; omega) rfl
  have hr := wblock_apply V c t (wCol j k) (arrCol (((cfg2.win 2).blk t).view.emb j) k) rfl
    (by show win2_2.index t (1 : Fin 2) * 128 + 1 * (j 1).val = (j 1).val; rw [e21]; omega)
  rw [hl, hr]

/-- An index of the array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v47).slice (win2_2.rect t)).set ↔ _
  rw [View.set_slice_whole, Rect.mem_set_unit]
  exact Iff.rfl

/-- Every block row of the array is some point's. -/
theorem index_onto : ∀ q : Fin 20, ∃ t : Fin cfg2.N, win2_2.index t (0 : Fin 2) = q.val ∧ win2_2.index t (1 : Fin 2) = 0 :=
  (by decide +kernel : ∀ q : Fin 20, ∃ t : Fin grid2.N, win2_2.index t (0 : Fin 2) = q.val ∧ win2_2.index t (1 : Fin 2) = 0)

/-- The twenty blocks tile the array: row `r` lies in the block of the point whose block row is `r / 5000`. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, q0, q1⟩ := index_onto ⟨(i 0).val / 5000, by omega⟩
  have q0' : win2_2.index t (0 : Fin 2) = (i 0).val / 5000 := q0
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The array region 2 leaves: the whole product of the first layer's output with the second weight matrix, block by block. -/
theorem arr_eq (c : Dev nD) :
    (dat2 (F := Ideal) V c).arrAt 2 cfg2.N = Cert.Gcn.mm (F := Ideal) (V c main_v46) (V c main_arg3) := by
  exact (dat2 (F := Ideal) V c).arrAt_eq_of_cover 2 (Cert.Gcn.mm (F := Ideal) (V c main_v46) (V c main_arg3)) (fun t _ => flushed_eq V c t) cover

end Cert.KernelIdeal.Region2

end
-- ==== Proof.Region3.lean ====
import proofs.«142045_j48069273977164_1_alg».proof.Proof.Gen.KernelIdeal.Frame
import proofs.«142045_j48069273977164_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

open Idealize.ShloMosaic.ValueIdx

/-- The two zero offsets of a whole-block load or store are the constant zero. -/
theorem zero_off : (![0, 0] : Fin 2 → Nat) = fun _ => 0 := funext fun a => by fin_cases a <;> rfl

/-- What the result array ends holding: the aggregate plus the bias row repeated down all rows. -/
abbrev G (a : S100000x128.Idx → Elt Ideal .f32) (b : S1x128.Idx → Elt Ideal .f32) : S100000x128.Idx → Elt Ideal .f32 :=
  addf (F := Ideal) (s := S100000x128) (φ := .f32) a (Cert.Gcn.rows (F := Ideal) b)

/-- The body's value at entry `(p, q)` of a block: the block's entry plus the bias row's entry `q`. -/
theorem pay_apply (x0 : Vec Ideal S5000x128 .f32) (x1 : Vec Ideal S1x128 .f32) (p : Fin 5000) (q : Fin 128) :
    k3_pay1 x0 x1 (ix2 p q) = x0 (ix2 p q) + x1 (ix2 (0 : Fin 1) q) := by
  unfold k3_pay1
  show shapeCast S5000x128 x0 shapeCasts_S5000x128_S5000x128 (ix2 p q)
    + broadcastTo S5000x128 (shapeCast S1x128 x1 shapeCasts_S1x128_S1x128) broadcasts_S1x128_S5000x128 (ix2 p q) = _
  rw [shapeCast_self, shapeCast_self, broadcastTo_1b_ab_apply]

/-- The bias row repeated down the rows, read at `(r, q)`, is the row's entry `q`. -/
theorem rows_apply (b : S1x128.Idx → Elt Ideal .f32) (r : Fin 100000) (q : Fin 128) :
    Cert.Gcn.rows (F := Ideal) b (ix2 r q) = b (ix2 (0 : Fin 1) q) := by
  unfold Cert.Gcn.rows
  refine broadcastInDim_apply _ _ b (ix2 r q) (ix2 (0 : Fin 1) q) fun ax => ?_
  match ax with
  | ⟨0, _⟩ => rfl
  | ⟨1, _⟩ => rfl

/-- The whole-array function at `(r, q)`. -/
theorem G_apply (a : S100000x128.Idx → Elt Ideal .f32) (b : S1x128.Idx → Elt Ideal .f32) (r : Fin 100000) (q : Fin 128) :
    G a b (ix2 r q) = a (ix2 r q) + b (ix2 (0 : Fin 1) q) := by
  show a (ix2 r q) + Cert.Gcn.rows (F := Ideal) b (ix2 r q) = _
  rw [rows_apply]

/-- The index maps over the grid: the row-block windows sit at block `(t, 0)`, the bias row at block `(0, 0)`. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One entry of a block against the whole-array function: the block's entry `j` of the aggregate is the array's entry
    `i` in the same column, and the loaded bias row is the bias array. -/
theorem block_entry (A : S100000x128.Idx → Elt Ideal .f32) (B : S1x128.Idx → Elt Ideal .f32)
    (x0 : Vec Ideal S5000x128 .f32) (x1 : Vec Ideal S1x128 .f32) (j : S5000x128.Idx) (i : S100000x128.Idx)
    (h0 : x0 j = A i) (h1 : ∀ q : Fin 128, x1 (ix2 (0 : Fin 1) q) = B (ix2 (0 : Fin 1) q)) (hq : (i 1).val = (j 1).val) :
    k3_pay1 x0 x1 j = G A B i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hq
  rw [pay_apply, G_apply, h0, h1]

/-- What point `t` writes back is block `t` of the whole-array function of the arrays the region finds. -/
theorem flushed_eq (c : Dev nD) (t : Fin cfg3.N) :
    (dat3 (F := Ideal) V c).flushed 2 t = ((cfg3.win 2).blk t).view.read (Elt Ideal) (G (V c main_v60) (V c main_v61)) := by
  show (cfg3.win 2).cut (grid3.coords t) ((dat3 V c).after 2 t) = _
  rw [after3_2]
  unfold out3_2
  rw [View.canon_unit_zero zero_off]
  simp only [View.ld_unit_zero (S := S5000x128) zero_off, View.ld_unit_zero (S := S1x128) zero_off]
  obtain ⟨e0, e1, e2, e3, e4, e5⟩ := idx_facts t
  funext j
  show k3_pay1 (iblk3 V c 0 t) (iblk3 V c 1 t) j = G (V c main_v60) (V c main_v61) (((cfg3.win 2).blk t).view.emb j)
  refine block_entry _ _ _ _ j _ ?_ ?_ ?_
  · show V c main_v60 (((cfg3.win 0).blk t).view.emb j) = V c main_v60 (((cfg3.win 2).blk t).view.emb j)
    refine congrArg (V c main_v60) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  · intro q
    show V c main_v61 (((cfg3.win 1).blk t).view.emb (ix2 (0 : Fin 1) q)) = V c main_v61 (ix2 (0 : Fin 1) q)
    refine congrArg (V c main_v61) (funext fun a => Fin.ext ?_)
    match a with
    | ⟨0, _⟩ => show win3_1.index t (0 : Fin 2) * 1 + 1 * (0 : Fin 1).val = (0 : Fin 1).val; rw [e2]; rfl
    | ⟨1, _⟩ => show win3_1.index t (1 : Fin 2) * 128 + 1 * q.val = q.val; omega
  · show win3_2.index t (1 : Fin 2) * 128 + 1 * (j 1).val = (j 1).val
    omega

/-- An index of the array is in point `t`'s block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v62).slice (win3_2.rect t)).set ↔ _
  rw [View.set_slice_whole, Rect.mem_set_unit]
  exact Iff.rfl

/-- Every index of the array is in some point's block: row `r` lies in the block of point `r / 5000`. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  let t : Fin cfg3.N := ⟨(i 0).val / 5000, by show (i 0).val / 5000 < 20; omega⟩
  obtain ⟨e0, e1, e2, e3, e4, e5⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The array region 3 leaves: the second aggregate plus the bias rows, block by block. -/
theorem arr_eq (c : Dev nD) :
    (dat3 (F := Ideal) V c).arrAt 2 cfg3.N = addf (F := Ideal) (s := S100000x128) (φ := .f32) (V c main_v60) (Cert.Gcn.rows (F := Ideal) (V c main_v61)) := by
  exact (dat3 (F := Ideal) V c).arrAt_eq_of_cover 2 (G (V c main_v60) (V c main_v61)) (fun t _ => flushed_eq V c t) cover

end Cert.KernelIdeal.Region3

end
-- ==== Proof.Chain.lean ====
import proofs.«142045_j48069273977164_1_alg».proof.Proof.HostStretch
import proofs.«142045_j48069273977164_1_alg».proof.Proof.Region0
import proofs.«142045_j48069273977164_1_alg».proof.Proof.Region1
import proofs.«142045_j48069273977164_1_alg».proof.Proof.Region2
import proofs.«142045_j48069273977164_1_alg».proof.Proof.Region3

/-!
# The kernel program's result, boundary by boundary

The kernel program is nine segments: three host stretches, region 0 (`x · W1`), a host stretch (the first
aggregation and the first bias row), region 1 (add the bias, `tanh`), region 2 (`· W2`), a host stretch
(the second aggregation and the second bias row), region 3 (add the bias).  The frame names the buffers'
contents at each segment boundary (`W3 … W9`).  Here each boundary is read at the few buffers a later
segment uses: a buffer a region writes holds that region's whole-array value (Region0 … Region3), a
buffer a host stretch writes holds the stretch's composed term (HostStretch), every other buffer is
carried over unchanged.  At the last boundary the result buffer holds `Gcn.out` of the six arguments.
-/

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Region 0's entry: the lists and the weights are computed, the arguments untouched -/

theorem at3_src : W3 m ρ c (Proc.devRef .tc main_v5) = (Cert.Gcn.srcIdx (m ((c : Thread nD τ).loc main_arg5))) := Host.pre_src (W0 m ρ c)
theorem at3_dst : W3 m ρ c (Proc.devRef .tc main_v6) = (Cert.Gcn.dstIdx (m ((c : Thread nD τ).loc main_arg5))) := Host.pre_dst (W0 m ρ c)
theorem at3_norm : W3 m ρ c (Proc.devRef .tc main_v30) = (Cert.Gcn.norm (Cert.Gcn.srcIdx (m ((c : Thread nD τ).loc main_arg5))) (Cert.Gcn.dstIdx (m ((c : Thread nD τ).loc main_arg5)))) := Host.pre_norm (W0 m ρ c)
theorem at3_arg0 : W3 m ρ c (Proc.devRef .tc main_arg0) = (m ((c : Thread nD τ).loc main_arg0)) := Host.pre_arg0 (W0 m ρ c)
theorem at3_arg1 : W3 m ρ c (Proc.devRef .tc main_arg1) = (m ((c : Thread nD τ).loc main_arg1)) := Host.pre_arg1 (W0 m ρ c)
theorem at3_arg2 : W3 m ρ c (Proc.devRef .tc main_arg2) = (m ((c : Thread nD τ).loc main_arg2)) := Host.pre_arg2 (W0 m ρ c)
theorem at3_arg3 : W3 m ρ c (Proc.devRef .tc main_arg3) = (m ((c : Thread nD τ).loc main_arg3)) := Host.pre_arg3 (W0 m ρ c)
theorem at3_arg4 : W3 m ρ c (Proc.devRef .tc main_arg4) = (m ((c : Thread nD τ).loc main_arg4)) := Host.pre_arg4 (W0 m ρ c)

/-! ## Region 0's exit: `main_v31` holds `x · W1` -/

theorem at4_h : W4 m ρ c (Proc.devRef .tc main_v31) = (Cert.Gcn.mm (m ((c : Thread nD τ).loc main_arg0)) (m ((c : Thread nD τ).loc main_arg1))) :=
  (W4_arr m ρ c 2).trans ((Region0.arr_eq (V3 m ρ) c).trans (by
    show Cert.Gcn.mm (W3 m ρ c (Proc.devRef .tc main_arg0)) (W3 m ρ c (Proc.devRef .tc main_arg1)) = _
    rw [at3_arg0, at3_arg1]))
theorem at4_src : W4 m ρ c (Proc.devRef .tc main_v5) = (Cert.Gcn.srcIdx (m ((c : Thread nD τ).loc main_arg5))) := (W4_of_ne m ρ c main_v5 (by decide)).trans (at3_src m ρ c)
theorem at4_dst : W4 m ρ c (Proc.devRef .tc main_v6) = (Cert.Gcn.dstIdx (m ((c : Thread nD τ).loc main_arg5))) := (W4_of_ne m ρ c main_v6 (by decide)).trans (at3_dst m ρ c)
theorem at4_norm : W4 m ρ c (Proc.devRef .tc main_v30) = (Cert.Gcn.norm (Cert.Gcn.srcIdx (m ((c : Thread nD τ).loc main_arg5))) (Cert.Gcn.dstIdx (m ((c : Thread nD τ).loc main_arg5)))) := (W4_of_ne m ρ c main_v30 (by decide)).trans (at3_norm m ρ c)
theorem at4_arg2 : W4 m ρ c (Proc.devRef .tc main_arg2) = (m ((c : Thread nD τ).loc main_arg2)) := (W4_of_ne m ρ c main_arg2 (by decide)).trans (at3_arg2 m ρ c)
theorem at4_arg3 : W4 m ρ c (Proc.devRef .tc main_arg3) = (m ((c : Thread nD τ).loc main_arg3)) := (W4_of_ne m ρ c main_arg3 (by decide)).trans (at3_arg3 m ρ c)
theorem at4_arg4 : W4 m ρ c (Proc.devRef .tc main_arg4) = (m ((c : Thread nD τ).loc main_arg4)) := (W4_of_ne m ρ c main_arg4 (by decide)).trans (at3_arg4 m ρ c)

/-! ## Region 1's entry: the first aggregate and the first bias row -/

theorem at5_agg : W5 m ρ c (Proc.devRef .tc main_v44) = (Cert.Gcn.agg (Cert.Gcn.srcIdx (m ((c : Thread nD τ).loc main_arg5))) (Cert.Gcn.dstIdx (m ((c : Thread nD τ).loc main_arg5))) (Cert.Gcn.norm (Cert.Gcn.srcIdx (m ((c : Thread nD τ).loc main_arg5))) (Cert.Gcn.dstIdx (m ((c : Thread nD τ).loc main_arg5)))) (Cert.Gcn.mm (m ((c : Thread nD τ).loc main_arg0)) (m ((c : Thread nD τ).loc main_arg1)))) :=
  (Host.mid_agg (W4 m ρ c)).trans (by rw [at4_src, at4_dst, at4_norm, at4_h])
theorem at5_row : W5 m ρ c (Proc.devRef .tc main_v45) = Cert.Gcn.asRow (m ((c : Thread nD τ).loc main_arg2)) :=
  (Host.mid_row (W4 m ρ c)).trans (by rw [at4_arg2])
theorem at5_src : W5 m ρ c (Proc.devRef .tc main_v5) = (Cert.Gcn.srcIdx (m ((c : Thread nD τ).loc main_arg5))) := (Host.mid_keep_src (W4 m ρ c)).trans (at4_src m ρ c)
theorem at5_dst : W5 m ρ c (Proc.devRef .tc main_v6) = (Cert.Gcn.dstIdx (m ((c : Thread nD τ).loc main_arg5))) := (Host.mid_keep_dst (W4 m ρ c)).trans (at4_dst m ρ c)
theorem at5_norm : W5 m ρ c (Proc.devRef .tc main_v30) = (Cert.Gcn.norm (Cert.Gcn.srcIdx (m ((c : Thread nD τ).loc main_arg5))) (Cert.Gcn.dstIdx (m ((c : Thread nD τ).loc main_arg5)))) := (Host.mid_keep_norm (W4 m ρ c)).trans (at4_norm m ρ c)
theorem at5_arg3 : W5 m ρ c (Proc.devRef .tc main_arg3) = (m ((c : Thread nD τ).loc main_arg3)) := (Host.mid_keep_arg3 (W4 m ρ c)).trans (at4_arg3 m ρ c)
theorem at5_arg4 : W5 m ρ c (Proc.devRef .tc main_arg4) = (m ((c : Thread nD τ).loc main_arg4)) := (Host.mid_keep_arg4 (W4 m ρ c)).trans (at4_arg4 m ρ c)

/-! ## Region 1's exit: `main_v46` holds the first layer -/

theorem at6_h : W6 m ρ c (Proc.devRef .tc main_v46) = (Cert.Gcn.layer1 (m ((c : Thread nD τ).loc main_arg0)) (m ((c : Thread nD τ).loc main_arg1)) (m ((c : Thread nD τ).loc main_arg2)) (m ((c : Thread nD τ).loc main_arg5))) :=
  (W6_arr m ρ c 2).trans ((Region1.arr_eq (V5 m ρ) c).trans (by
    show Host.tanh (F := Ideal) (s := S100000x128) (φ := .f32) (addf (F := Ideal) (s := S100000x128) (φ := .f32) (W5 m ρ c (Proc.devRef .tc main_v44)) (Cert.Gcn.rows (F := Ideal) (W5 m ρ c (Proc.devRef .tc main_v45)))) = _
    rw [at5_agg, at5_row]
    rfl))
theorem at6_src : W6 m ρ c (Proc.devRef .tc main_v5) = (Cert.Gcn.srcIdx (m ((c : Thread nD τ).loc main_arg5))) := (W6_of_ne m ρ c main_v5 (by decide)).trans (at5_src m ρ c)
theorem at6_dst : W6 m ρ c (Proc.devRef .tc main_v6) = (Cert.Gcn.dstIdx (m ((c : Thread nD τ).loc main_arg5))) := (W6_of_ne m ρ c main_v6 (by decide)).trans (at5_dst m ρ c)
theorem at6_norm : W6 m ρ c (Proc.devRef .tc main_v30) = (Cert.Gcn.norm (Cert.Gcn.srcIdx (m ((c : Thread nD τ).loc main_arg5))) (Cert.Gcn.dstIdx (m ((c : Thread nD τ).loc main_arg5)))) := (W6_of_ne m ρ c main_v30 (by decide)).trans (at5_norm m ρ c)
theorem at6_arg3 : W6 m ρ c (Proc.devRef .tc main_arg3) = (m ((c : Thread nD τ).loc main_arg3)) := (W6_of_ne m ρ c main_arg3 (by decide)).trans (at5_arg3 m ρ c)
theorem at6_arg4 : W6 m ρ c (Proc.devRef .tc main_arg4) = (m ((c : Thread nD τ).loc main_arg4)) := (W6_of_ne m ρ c main_arg4 (by decide)).trans (at5_arg4 m ρ c)

/-! ## Region 2's exit: `main_v47` holds the first layer times `W2` -/

theorem at7_h : W7 m ρ c (Proc.devRef .tc main_v47) = (Cert.Gcn.mm (Cert.Gcn.layer1 (m ((c : Thread nD τ).loc main_arg0)) (m ((c : Thread nD τ).loc main_arg1)) (m ((c : Thread nD τ).loc main_arg2)) (m ((c : Thread nD τ).loc main_arg5))) (m ((c : Thread nD τ).loc main_arg3))) :=
  (W7_arr m ρ c 2).trans ((Region2.arr_eq (V6 m ρ) c).trans (by
    show Cert.Gcn.mm (W6 m ρ c (Proc.devRef .tc main_v46)) (W6 m ρ c (Proc.devRef .tc main_arg3)) = _
    rw [at6_h, at6_arg3]))
theorem at7_src : W7 m ρ c (Proc.devRef .tc main_v5) = (Cert.Gcn.srcIdx (m ((c : Thread nD τ).loc main_arg5))) := (W7_of_ne m ρ c main_v5 (by decide)).trans (at6_src m ρ c)
theorem at7_dst : W7 m ρ c (Proc.devRef .tc main_v6) = (Cert.Gcn.dstIdx (m ((c : Thread nD τ).loc main_arg5))) := (W7_of_ne m ρ c main_v6 (by decide)).trans (at6_dst m ρ c)
theorem at7_norm : W7 m ρ c (Proc.devRef .tc main_v30) = (Cert.Gcn.norm (Cert.Gcn.srcIdx (m ((c : Thread nD τ).loc main_arg5))) (Cert.Gcn.dstIdx (m ((c : Thread nD τ).loc main_arg5)))) := (W7_of_ne m ρ c main_v30 (by decide)).trans (at6_norm m ρ c)
theorem at7_arg4 : W7 m ρ c (Proc.devRef .tc main_arg4) = (m ((c : Thread nD τ).loc main_arg4)) := (W7_of_ne m ρ c main_arg4 (by decide)).trans (at6_arg4 m ρ c)

/-! ## Region 3's entry: the second aggregate and the second bias row -/

theorem at8_agg : W8 m ρ c (Proc.devRef .tc main_v60) = (Cert.Gcn.agg (Cert.Gcn.srcIdx (m ((c : Thread nD τ).loc main_arg5))) (Cert.Gcn.dstIdx (m ((c : Thread nD τ).loc main_arg5))) (Cert.Gcn.norm (Cert.Gcn.srcIdx (m ((c : Thread nD τ).loc main_arg5))) (Cert.Gcn.dstIdx (m ((c : Thread nD τ).loc main_arg5)))) (Cert.Gcn.mm (Cert.Gcn.layer1 (m ((c : Thread nD τ).loc main_arg0)) (m ((c : Thread nD τ).loc main_arg1)) (m ((c : Thread nD τ).loc main_arg2)) (m ((c : Thread nD τ).loc main_arg5))) (m ((c : Thread nD τ).loc main_arg3)))) :=
  (Host.post_agg (W7 m ρ c)).trans (by rw [at7_src, at7_dst, at7_norm, at7_h])
theorem at8_row : W8 m ρ c (Proc.devRef .tc main_v61) = Cert.Gcn.asRow (m ((c : Thread nD τ).loc main_arg4)) :=
  (Host.post_row (W7 m ρ c)).trans (by rw [at7_arg4])

/-! ## The last boundary: the result buffer holds both layers -/

/-- The kernel program's result array, as the frame names it at the last segment boundary, is `Gcn.out` of the six
    argument arrays. -/
theorem result_eq : W9 m ρ c (Proc.devRef .tc main_v62) = Cert.Gcn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans ((Region3.arr_eq (V8 m ρ) c).trans (by
    show addf (F := Ideal) (s := S100000x128) (φ := .f32) (W8 m ρ c (Proc.devRef .tc main_v60)) (Cert.Gcn.rows (F := Ideal) (W8 m ρ c (Proc.devRef .tc main_v61))) = _
    rw [at8_agg, at8_row]
    rfl))

end Cert.KernelIdeal.Chain

end
-- ==== Proof.RefSpec.lean ====
import proofs.«142045_j48069273977164_1_alg».proof.Proof.RefRun
import proofs.«142045_j48069273977164_1_alg».proof.Proof.Spec

/-!
# The reference computes the specification

The reference's result, composed from its host operations, is the specification's term: the degree, the
weights and the aggregation are spelt there with the same operations in the same order, computed once
for each layer from the same edge array, so the two terms agree by unfolding the names.
-/

set_option maxRecDepth 16384

noncomputable section

namespace Cert.ReferenceIdeal.RefSpec

open Cert.ReferenceIdeal Cert.ReferenceIdeal.Gen Idealize.ShloMosaic Idealize.ShloMosaic.TcCoe Idealize.SL.Sem Idealize.ShloMosaic.StableHlo

variable {F : FTy → Type} [FloatOps F]

/-- The reference's result array is `Gcn.out` of its six argument arrays. -/
theorem res_eq (m : (ℓ : Loc nD τ sig) → Buf (Elt F) ℓ) (c : Dev nD) :
    Cert.ReferenceIdeal.RunP.res_main_v92 (F := F) m c
      = Cert.Gcn.out (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.RunP.res_main_v92
  rfl

end Cert.ReferenceIdeal.RefSpec

end
-- ==== Proof.lean ====
/-
  A two-layer graph convolution, `agg (tanh (agg (x · W1) + b1) · W2) + b2` over 100000 nodes, 128 features and
  600000 edges with self loops, where `agg` gathers each list position's source row, scales it by the product of
  the two endpoints' inverse square root degrees and adds it into its destination row.

  The kernel program keeps the gathers and the scatter-adds on the host and runs four kernel regions: the two
  dense products `· W1`, `· W2` (each 5000-row block of the node matrix times the whole weight matrix, the
  operands narrowed to bf16 on the way in, which changes nothing over the extended reals) and the two bias
  additions (the first followed by `tanh`), each over twenty 5000-row blocks that tile the 100000 rows.  It
  computes the edge weights once; the reference computes them once per layer, from the same edge array, by the
  same operations.

  Over the extended reals the two programs are the same function of the arguments, by no law beyond reading a
  block of a product as the product of a block: no sum is reordered and nothing is distributed or cancelled, so
  the finiteness of the inputs is never used.

  * Spec.lean states that function, `Gcn.out`, with the reference's host operations.
  * RefSpec.lean: the reference's result is `Gcn.out` of its arguments, by unfolding.
  * Region0 … Region3: the array each kernel region leaves is one whole-array function of the arrays it finds.
  * HostStretch.lean: each host stretch of the kernel program, as values.
  * Chain.lean: the kernel program's result, boundary by boundary, is `Gcn.out` of its arguments.
  * RunNamed.lean: the kernel program's run with the result array named; RefRun.lean: the reference's run.
-/
import proofs.«142045_j48069273977164_1_alg».proof.Defs
import proofs.«142045_j48069273977164_1_alg».proof.Proof.Gen.Kernel
import proofs.«142045_j48069273977164_1_alg».proof.Proof.Gen.Kernel.Frame
import proofs.«142045_j48069273977164_1_alg».proof.Proof.Gen.KernelIdeal
import proofs.«142045_j48069273977164_1_alg».proof.Proof.Gen.KernelIdeal.Frame
import proofs.«142045_j48069273977164_1_alg».proof.Proof.Gen.ReferenceIdeal
import proofs.«142045_j48069273977164_1_alg».proof.Proof.Gen.Pre_finite_inputs
import proofs.«142045_j48069273977164_1_alg».proof.Proof.RunNamed
import proofs.«142045_j48069273977164_1_alg».proof.Proof.Chain
import proofs.«142045_j48069273977164_1_alg».proof.Proof.RefRun
import proofs.«142045_j48069273977164_1_alg».proof.Proof.RefSpec
import Idealize.ShloMosaic.Adequacy
import Idealize.ShloMosaic.Init

set_option maxRecDepth 16384

noncomputable section

namespace Cert.Proof

open Idealize.ShloMosaic Idealize.SL.Sem

/-- The word-level kernel program terminates, faults nowhere and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.RunP.run (F := Ideal) m ρ)

/-- Both programs, from memories that agree on the six arguments, end with `Gcn.out` of those arguments in their
    result arrays: the kernel program by reading its segment boundaries (Chain.lean), the reference by unfolding its
    composed term (RefSpec.lean). -/
theorem algebraic : Cert.algebraic_KernelIdeal_ReferenceIdeal := by
  intro m ρ m' ρ' _ hagree
  refine ⟨fun c => Cert.Gcn.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result_eq m ρ c), (h c).2⟩)
      (Cert.KernelIdeal.RunNamed.run (F := Ideal) m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.RefSpec.res_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
